-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x128 .f32) (main_arg2 : FVec F S128 .f32) (main_arg3 : IVec S2x1600000 32) (main_arg4 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S_ : Shape := ⟨0, ![]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100001x128 : Shape := ⟨2, ![100001, 128]⟩

abbrev nBuf : Space → Nat
  | .hbm => 49
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S100000, .i32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S100000, .f32⟩
  | .hbm, ⟨9, _⟩ => ⟨S128x128, .f32⟩
  | .hbm, ⟨10, _⟩ => ⟨S1x128, .f32⟩
  | .hbm, ⟨11, _⟩ => ⟨S100000x1, .f32⟩
  | .hbm, ⟨12, _⟩ => ⟨S100000x128, .bf16⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000, .i1⟩
  | .hbm, ⟨26, _⟩ => ⟨S_, .i32⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S_, .i32⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S_, .f32⟩
  | .hbm, ⟨45, _⟩ => ⟨S100001x128, .f32⟩
  | .hbm, ⟨46, _⟩ => ⟨S1600000x1, .i32⟩
  | .hbm, ⟨47, _⟩ => ⟨S100001x128, .f32⟩
  | .hbm, ⟨48, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .bf16⟩
  | .local _ .vmem, ⟨7, _⟩ => ⟨S5000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_c_3 : Ref sig .tc := ⟨.hbm, 30, rfl⟩
abbrev main_call1_v0 : Ref sig .tc := ⟨.hbm, 31, rfl⟩
abbrev main_call1_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S100000 : S_.BroadcastsInDim S100000 (![] : Fin 0 → Fin S100000.rank)
  transposes_S128x128_S128x128_1_0 : S128x128.Transposes [1, 0] S128x128
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100001x128 : S_.BroadcastsInDim S100001x128 (![] : Fin 0 → Fin S100001x128.rank)
  slices_S100001x128_S100000x128_0_0 : S100001x128.Slices ![0, 0] S100000x128
  dot_S5000x128_S128x128_S5000x128_1_0_0_1_n_n_wf : DotDims.WF S5000x128 S128x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100001x128_S1600000x1_S1600000x128_1_0_0_1_wf : ScatterDims.WF S100001x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .bf16 = 32 ∨ (Rect.block (s := S100000x128) S5000x128.size (cc0_transform_4 i) (hinb0_4 i)).WholeWords (EltTy.packing .bf16)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100001x128_S1600000x1_S1600000x128_1_0_0_1 : ScatterDims S100001x128 S1600000x1 S1600000x128 where
  updateWindowDims := [1]
  insertedWindowDims := [0]
  scatterDimsToOperandDims := [0]
  indexVectorDim := 1
  wf := scatter_S100001x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S100000, .i32⟩
  | .hbm, ⟨5, _⟩ => ⟨S128x128, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S100000, .i32⟩
  | .hbm, ⟨16, _⟩ => ⟨S100000, .i1⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .i1⟩
  | .hbm, ⟨35, _⟩ => ⟨S1600000x1, .i1⟩
  | .hbm, ⟨36, _⟩ => ⟨S1600000x1, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelBlock.lean ====
/-
  One grid point of the projection kernel, read at an element.

  At grid point `t` the kernel holds a block of 5000 rows of `x`, the whole transposed weight matrix, the bias as a
  one-row matrix and the block's 5000 mask entries as a column. Over the extended reals its one store is, at row `p` and
  column `q` of the block,
      (∑ k, x[p, k] · Wᵀ[k, q]  +  bias[0, q]) · mask[p, 0]
  — the matrix unit's product into a zero accumulator is the plain sum over the contracted axis, the changes of float
  format are the identity, and the two broadcasts repeat the bias along the rows and the mask along the columns.
-/
import proofs.«419726_j81793357185324_3_alg».proof.Proof.Gen.KernelIdeal.Skeleton
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx

/-- The matrix product's left index: the block's row, then the contracted position. -/
theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right index: the contracted position, then the block's column. -/
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into a zero accumulator, at row `p` and column `q`: the sum over the 128 contracted
    positions of the products. -/
theorem matmul_at (x : FVec Ideal S5000x128 .bf16) (w : FVec Ideal S128x128 .bf16) (p : Fin 5000) (q : Fin 128) :
    matmul (F := Ideal) dot_S5000x128_S128x128_S5000x128_1_0_0_1_n_n none x w (constant S5000x128 .f32 0x00000000#32) (ix2 p q)
      = ∑ k : Fin 128, x (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row repeated along the block's rows. -/
theorem bias_at (v : (⟨2, ![1, 128]⟩ : Shape).Idx → EReal) (h : S1x128.Broadcasts S5000x128) (p : Fin 5000) (q : Fin 128) :
    broadcastTo S5000x128 v h (ix2 p q) = v (ix2 0 q) :=
  broadcastTo_apply v h (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-- The mask column repeated along the block's columns. -/
theorem mask_at (v : (⟨2, ![5000, 1]⟩ : Shape).Idx → EReal) (h : S5000x1.Broadcasts S5000x128) (p : Fin 5000) (q : Fin 128) :
    broadcastTo S5000x128 v h (ix2 p q) = v (ix2 p 0) :=
  broadcastTo_apply v h (ix2 p q) (ix2 p 0) (fun a => match a with
    | ⟨0, _⟩ => by show p.val = if (5000 : Nat) = 1 then 0 else p.val; rw [if_neg (by decide)]
    | ⟨1, _⟩ => by show 0 = if (1 : Nat) = 1 then 0 else _; rw [if_pos rfl])

/-- THE BLOCK'S STORE at row `p`, column `q`. -/
theorem pay_at (v0 : Vec Ideal S5000x128 .f32) (v2 : Vec Ideal S128x128 .f32) (v6 : Vec Ideal S1x128 .f32) (v10 : Vec Ideal S5000x1 .f32)
    (p : Fin 5000) (q : Fin 128) :
    k0_pay1 (F := Ideal) v0 v2 v6 v10 (ix2 p q) = (∑ k : Fin 128, v0 (ix2 p k) * v2 (ix2 k q) + v6 (ix2 0 q)) * v10 (ix2 p 0) := by
  unfold k0_pay1
  simp only [shapeCast_self]
  show FloatOps.truncf (F := Ideal) .bf16 _ (FloatOps.mulf (FloatOps.addf (matmul (F := Ideal) dot_S5000x128_S128x128_S5000x128_1_0_0_1_n_n none
      (truncf .bf16 v0 bitsLt_bf16_f32) (truncf .bf16 v2 bitsLt_bf16_f32) (constant S5000x128 .f32 0x00000000#32) (ix2 p q))
      (broadcastTo S5000x128 v6 broadcasts_S1x128_S5000x128 (ix2 p q))) (broadcastTo S5000x128 v10 broadcasts_S5000x1_S5000x128 (ix2 p q))) = _
  rw [matmul_at, bias_at, mask_at]
  rfl

end Cert.KernelIdeal.Block

end
-- ==== Proof.KernelArray.lean ====
/-
  The projection kernel's output array after the region, as one function of the arrays it reads.

  The grid has 20 points; point `t` reads rows `5000·t … 5000·t + 4999` of `x` and of the mask column, the whole
  transposed weight matrix and the bias row, and writes back the same 5000 rows of the output. The 20 blocks tile the
  100000 rows, so after the region the output array is, at every row `n` and column `d`,
      (∑ k, x[n, k] · Wᵀ[k, d]  +  bias[0, d]) · mask[n, 0].
-/
import proofs.«419726_j81793357185324_3_alg».proof.Proof.Gen.KernelIdeal.Frame
import proofs.«419726_j81793357185324_3_alg».proof.Proof.KernelBlock
import Idealize.ShloMosaic.Lib.Pipeline.Value

set_option maxRecDepth 16384

noncomputable section

namespace Cert.KernelIdeal.Arr

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The masked projection over whole arrays: row `n`, column `d`. -/
def proj (X : S100000x128.Idx → EReal) (Wt : S128x128.Idx → EReal) (B : S1x128.Idx → EReal) (M : S100000x1.Idx → EReal) :
    S100000x128.Idx → EReal :=
  fun i => (∑ k : Fin 128, X (ix2 (i 0) k) * Wt (ix2 k (i 1)) + B (ix2 0 (i 1))) * M (ix2 (i 0) 0)

/-- The arrays the region finds, each at its literal type: `x`, the transposed weights, the bias row, the mask column. -/
abbrev xarr (c : Dev nD) : S100000x128.Idx → EReal := V m c main_arg0
abbrev wtarr (c : Dev nD) : S128x128.Idx → EReal := V m c main_v3
abbrev barr (c : Dev nD) : S1x128.Idx → EReal := V m c main_v4
abbrev marr (c : Dev nD) : S100000x1.Idx → EReal := V m c main_v5

theorem hz : (![0, 0] : Fin 2 → Nat) = fun _ => 0 := funext fun a => by fin_cases a <;> rfl

/-- The printed index maps over the grid: the row-blocked windows (x, the mask column, the output) move together, one
    block of rows per point; the weight matrix and the bias stay at block 0; a column block is always block 0. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (0 : Fin 2) ≤ 19 ∧ win0_4.index t (1 : Fin 2) = 0 :=
  (by decide +kernel : ∀ t : Fin grid0.N, _)

/-- Every block of rows is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

/-- WHAT POINT `t` WRITES BACK is block `t` of the masked projection of the arrays as the region finds them. -/
theorem flushed_eq (c : Dev nD) (t : Fin cfg0.N) :
    (dats m 0 c).flushed 4 t = ((cfg0.win 4).blk t).view.read (Elt Ideal)
      (proj (xarr m c) (wtarr m c) (barr m c) (marr m c)) := by
  show (cfg0.win 4).cut (grid0.coords t) ((dats m 0 c).after 4 t) = _
  rw [after0_4]
  unfold out0_4
  rw [View.canon_unit_zero hz]
  simp only [View.ld_unit_zero (S := S5000x128) hz, View.ld_unit_zero (S := S128x128) hz, View.ld_unit_zero (S := S1x128) hz,
    View.ld_unit_zero (S := S5000x1) hz]
  obtain ⟨e0, e1, e2, e3, e4, e5, e6, e7, e8, e9⟩ := idx_facts t
  funext j
  have hj0 : (j 0).val < 5000 := (j 0).isLt
  have hj1 : (j 1).val < 128 := (j 1).isLt
  refine ((congrArg (k0_pay1 (F := Ideal) (iblk m c 0 t) (iblk m c 1 t) (iblk m c 2 t) (iblk m c 3 t))
    (eq_ix2 (n0 := 5000) (n1 := 128) j)).trans
    (Block.pay_at (iblk m c 0 t) (iblk m c 1 t) (iblk m c 2 t) (iblk m c 3 t) (j 0) (j 1))).trans ?_
  show (∑ k : Fin 128, xarr m c (((cfg0.win 0).blk t).view.emb (ix2 (j 0) k)) * wtarr m c (((cfg0.win 1).blk t).view.emb (ix2 k (j 1)))
        + barr m c (((cfg0.win 2).blk t).view.emb (ix2 0 (j 1)))) * marr m c (((cfg0.win 3).blk t).view.emb (ix2 (j 0) 0))
      = proj (xarr m c) (wtarr m c) (barr m c) (marr m c) (((cfg0.win 4).blk t).view.emb j)
  unfold proj
  have h0 : ∀ k : Fin 128, ((cfg0.win 0).blk t).view.emb (ix2 (j 0) k) = ix2 ((((cfg0.win 4).blk t).view.emb j) 0) k := by
    intro k; funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k ((((cfg0.win 4).blk t).view.emb j) 1) := by
    intro k; funext a; apply Fin.ext
    match a with
    | ⟨0, _⟩ => show win0_1.index t (0 : Fin 2) * 128 + 1 * k.val = k.val; omega
    | ⟨1, _⟩ => show win0_1.index t (1 : Fin 2) * 128 + 1 * (j 1).val = win0_4.index t (1 : Fin 2) * 128 + 1 * (j 1).val; omega
  have h2 : ((cfg0.win 2).blk t).view.emb (ix2 0 (j 1)) = ix2 0 ((((cfg0.win 4).blk t).view.emb j) 1) := by
    funext a; apply Fin.ext
    match a with
    | ⟨0, _⟩ => show win0_2.index t (0 : Fin 2) * 1 + 1 * 0 = 0; omega
    | ⟨1, _⟩ => show win0_2.index t (1 : Fin 2) * 128 + 1 * (j 1).val = win0_4.index t (1 : Fin 2) * 128 + 1 * (j 1).val; omega
  have h3 : ((cfg0.win 3).blk t).view.emb (ix2 (j 0) 0) = ix2 ((((cfg0.win 4).blk t).view.emb j) 0) 0 := by
    funext a; apply Fin.ext
    match a with
    | ⟨0, _⟩ => show win0_3.index t (0 : Fin 2) * 5000 + 1 * (j 0).val = win0_4.index t (0 : Fin 2) * 5000 + 1 * (j 0).val; omega
    | ⟨1, _⟩ => show win0_3.index t (1 : Fin 2) * 1 + 1 * 0 = 0; omega
  simp only [h0, h1, h2, h3]
  rfl

/-- An index of the array is in point `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v6).slice (win0_4.rect t)).set ↔ _
  rw [View.set_slice_whole, Rect.mem_set_unit]
  exact Iff.rfl

/-- The 20 blocks of rows cover the array: row `n` is in the block of point `n / 5000`. -/
theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- THE OUTPUT ARRAY after the region: the masked projection of the arrays the region finds. -/
theorem final (c : Dev nD) :
    (dats m 0 c).arrAt 4 cfg0.N = proj (xarr m c) (wtarr m c) (barr m c) (marr m c) :=
  (dats m 0 c).arrAt_eq_of_cover 4 _ (fun t _ => flushed_eq m c t) cover

end Cert.KernelIdeal.Arr

end
-- ==== Proof.KernelTail.lean ====
/-
  The kernel program's host operations around the region, as functions of arrays.

  Before the region the program makes the Boolean mask `ranking ≤ 10000`, its float copy as a column, the transposed
  weight matrix and the bias as a row. After the region it works edge by edge: with `col` wrapped (a negative position
  counts from the end) and clamped it looks the mask up (`keep`); a dead edge (`keep` false) has its column sent to 0
  and its row to 100000, one past the last node; the rows of the region's output array are gathered at the new columns
  and added into a 100001-row accumulator at the new rows; the first 100000 rows are the result.
-/
import proofs.«419726_j81793357185324_3_alg».proof.Proof.Gen.KernelIdeal.Frame
import proofs.«419726_j81793357185324_3_alg».proof.Proof.KernelArray
import Idealize.ShloMosaic.Lib.StableHlo.Run
import Idealize.ShloMosaic.PureOps.Ideal

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ)

/-! ## The operations, named -/

/-- The mask: ranking at most 10000. -/
def mask (x4 : IVec S100000 32) : IVec S100000 1 :=
  cmpi .sle x4 (broadcastInDim S100000 ![] bcast_S_S100000 (constantI S_ 32 10000#32))

/-- Row 0 of the edge list: the receiving node of each edge. -/
def row (x3 : IVec S2x1600000 32) : IVec S1600000 32 :=
  shapeCast S1600000 (extractStridedSlice S1x1600000 ![0, 0] x3 slices_S2x1600000_S1x1600000_0_0) shapeCasts_S1x1600000_S1600000

/-- Row 1 of the edge list: the sending node of each edge. -/
def col (x3 : IVec S2x1600000 32) : IVec S1600000 32 :=
  shapeCast S1600000 (extractStridedSlice S1x1600000 ![1, 0] x3 slices_S2x1600000_S1x1600000_1_0) shapeCasts_S1x1600000_S1600000

/-- A position wrapped: a negative one counts from the end of the 100000 nodes. -/
def wrap (p : IVec S1600000 32) : IVec S1600000 32 :=
  select (cmpi .slt p (broadcastInDim S1600000 ![] bcast_S_S1600000 (constantI S_ 32 0#32)))
    (addi p (broadcastInDim S1600000 ![] bcast_S_S1600000 (constantI S_ 32 100000#32))) p

/-- Whether the edge's sending node passes the mask. -/
def keep (mk : IVec S100000 1) (x3 : IVec S2x1600000 32) : IVec S1600000 1 :=
  Host.gather gather_S100000_S1600000x1_S1600000_n_0_n_n_0_1_1 mk
    (broadcastInDim S1600000x1 ![0] bcast_S1600000_S1600000x1_0 (wrap (col x3)))

/-- A dead edge's column goes to 0. -/
def col2 (mk : IVec S100000 1) (x3 : IVec S2x1600000 32) : IVec S1600000 32 :=
  select (keep mk x3) (col x3) (broadcastInDim S1600000 ![] bcast_S_S1600000 (id (constantI S_ 32 0#32)))

/-- A dead edge's row goes to 100000, one past the last node. -/
def row2 (mk : IVec S100000 1) (x3 : IVec S2x1600000 32) : IVec S1600000 32 :=
  select (keep mk x3) (row x3) (broadcastInDim S1600000 ![] bcast_S_S1600000 (id (constantI S_ 32 100000#32)))

/-- The lines after the region: gather the rows of the region's output `A` at the new columns, add them into 100001 rows
    at the new rows, keep the first 100000. -/
def tail (A : S100000x128.Idx → EReal) (mk : IVec S100000 1) (x3 : IVec S2x1600000 32) : S100000x128.Idx → EReal :=
  extractStridedSlice S100000x128 ![0, 0]
    (Host.scatterAdd (F := Ideal) (φ := .f32) scatter_S100001x128_S1600000x1_S1600000x128_1_0_0_1
      (broadcastInDim S100001x128 ![] bcast_S_S100001x128 (constant (F := Ideal) S_ .f32 0x00000000#32))
      (broadcastInDim S1600000x1 ![0] bcast_S1600000_S1600000x1_0 (row2 mk x3))
      (extf (F := Ideal) (φ := .bf16) .f32
        (Host.gather gather_S100000x128_S1600000x1_S1600000x128_1_0_n_n_0_1_1128 A
          (broadcastInDim S1600000x1 ![0] bcast_S1600000_S1600000x1_0 (wrap (col2 mk x3))))
        bitsLt_bf16_f32))
    slices_S100001x128_S100000x128_0_0

/-! ## What the region finds -/

theorem V_v1 (c : Dev nD) : (V m c main_v1 : S100000.Idx → BitVec 1) = mask (m ((c : Thread nD τ).loc main_arg4)) := by
  show StableHlo.after hostOps0 (fun b => m (c, b)) (Proc.devRef .tc main_v1) = _
  after_results
  rfl

theorem V_v3 (c : Dev nD) : (V m c main_v3 : S128x128.Idx → EReal)
    = transpose S128x128 [1, 0] (m ((c : Thread nD τ).loc main_arg1)) transposes_S128x128_S128x128_1_0 := by
  show StableHlo.after hostOps0 (fun b => m (c, b)) (Proc.devRef .tc main_v3) = _
  after_results

theorem V_v4 (c : Dev nD) : (V m c main_v4 : S1x128.Idx → EReal)
    = shapeCast S1x128 (m ((c : Thread nD τ).loc main_arg2)) shapeCasts_S128_S1x128 := by
  show StableHlo.after hostOps0 (fun b => m (c, b)) (Proc.devRef .tc main_v4) = _
  after_results
  rfl

theorem V_v5 (c : Dev nD) : (V m c main_v5 : S100000x1.Idx → EReal)
    = shapeCast S100000x1 (uitofp (F := Ideal) .f32 (mask (m ((c : Thread nD τ).loc main_arg4)))) shapeCasts_S100000_S100000x1 := by
  show StableHlo.after hostOps0 (fun b => m (c, b)) (Proc.devRef .tc main_v5) = _
  after_results
  rfl

/-! ## The result buffer after the lines that follow the region -/

set_option maxHeartbeats 4000000 in
/-- What the program's result buffer holds after the region and the lines after it: `tail` of the region's output array,
    of the mask the region found and of the edge list. -/
theorem result_eq (c : Dev nD) :
    Pipeline.afterTail₀ cfgs (dats m) 0 (V0 m) [hostOps1, hostOps1_1, hostOps1_2, hostOps1_3, hostOps1_4] c main_v31
      = tail ((dats m 0 c).arrAt 4 cfg0.N) (V m c main_v1) (V m c main_arg3) := by
  have hA : Pipeline.withArrays (cfgs 0).spec c (V0 m c) (fun w => (dats m 0 c).arrAt w (cfgs 0).N) (Proc.devRef .tc main_v6)
      = (dats m 0 c).arrAt 4 cfg0.N := Pipeline.withArrays_arr spec0 launch0.win.arr_inj c _ _ 4
  have h1 : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  have h3 : Pipeline.withArrays (cfgs 0).spec c (V0 m c) (fun w => (dats m 0 c).arrAt w (cfgs 0).N) (Proc.devRef .tc main_arg3)
      = V m c main_arg3 :=
    Pipeline.withArrays_of_ne _ c (V0 m c) _ main_arg3 (by exact (by decide : ∀ w, Pipeline.arrRef spec0 w ≠ main_arg3))
  unfold Pipeline.afterTail₀
  simp only [hostOps1, hostOps1_1, hostOps1_2, hostOps1_3, hostOps1_4, List.flatten_cons, List.flatten_nil, List.append_nil,
    List.cons_append, List.nil_append]
  after_results_simp
  rw [hA, h1, h3]
  rfl

end Cert.KernelIdeal.Tail

end
-- ==== Proof.Projection.lean ====
/-
  The masked projection the region leaves, read with the reference's names.

  Row `n`, column `d` of the region's output array is `(∑ k, x[n, k] · Wᵀ[k, d] + bias[0, d]) · mask[n, 0]` over the
  arrays the region finds: the transposed weights, the bias reshaped to one row, the float mask reshaped to a column.
  The reference's projection `x·Wᵀ + b` at `(n, d)` is the same sum plus `b[d]`, and its float mask at `n` is the same
  entry: the reshapes only rename positions.
-/
import proofs.«419726_j81793357185324_3_alg».proof.Proof.Gen.ReferenceIdeal.Read
import proofs.«419726_j81793357185324_3_alg».proof.Proof.KernelTail
import Idealize.ShloMosaic.Lib.ValueIdx
import Idealize.ShloMosaic.Lib.Pipeline.Value
import Idealize.ShloMosaic.PureOps.Ideal

set_option maxRecDepth 16384

noncomputable section

namespace Cert.KernelIdeal.Projection

open Idealize.ShloMosaic Idealize.ShloMosaic.ValueIdx
open Cert.KernelIdeal Cert.KernelIdeal.Gen Cert.KernelIdeal.Tail
open Cert.ReferenceIdeal.Read

/-- The bias as a one-row matrix, at column `d`. -/
theorem bias_row_at (x2 : S128.Idx → EReal) (d : Fin 128) :
    shapeCast S1x128 x2 shapeCasts_S128_S1x128 (ix2 0 d) = x2 (ix1 d) :=
  shapeCast_apply x2 shapeCasts_S128_S1x128 (ix2 0 d) (ix1 d)
    (by rewrite [Shape.rowMajor_val_two, Shape.rowMajor_val_one]; show d.val = 0 * 128 + d.val; omega)

/-- A vector as a one-column matrix, at row `n`. -/
theorem column_at (v : S100000.Idx → EReal) (n : Fin 100000) :
    shapeCast S100000x1 v shapeCasts_S100000_S100000x1 (ix2 n 0) = v (ix1 n) :=
  shapeCast_apply v shapeCasts_S100000_S100000x1 (ix2 n 0) (ix1 n)
    (by rewrite [Shape.rowMajor_val_two, Shape.rowMajor_val_one]; show n.val = n.val * 1 + 0; omega)

/-- THE REGION'S ARRAY at row `n`, column `d`, is the reference's projection there times its float mask at `n`. -/
theorem proj_at (x0 : S100000x128.Idx → EReal) (x1 : S128x128.Idx → EReal) (x2 : S128.Idx → EReal) (x4 : IVec S100000 32)
    (n : Fin 100000) (d : Fin 128) :
    Arr.proj x0 (transpose S128x128 [1, 0] x1 transposes_S128x128_S128x128_1_0) (shapeCast S1x128 x2 shapeCasts_S128_S1x128)
        (shapeCast S100000x1 (uitofp (F := Ideal) .f32 (mask x4)) shapeCasts_S100000_S100000x1) (ix2 n d)
      = val_main_v4 (F := Ideal) x0 x1 x2 (ix2 n d) * FloatOps.uitofp (F := Ideal) .f32 (val_main_v10 (F := Ideal) x4 (ix1 n)) := by
  unfold Arr.proj
  show (∑ k : Fin 128, x0 (ix2 n k) * transpose S128x128 [1, 0] x1 transposes_S128x128_S128x128_1_0 (ix2 k d)
      + shapeCast S1x128 x2 shapeCasts_S128_S1x128 (ix2 0 d))
      * shapeCast S100000x1 (uitofp (F := Ideal) .f32 (mask x4)) shapeCasts_S100000_S100000x1 (ix2 n 0) = _
  rw [bias_row_at, column_at, val_main_v4_apply, val_main_v1_apply, val_main_v3_apply, val_main_v2_apply]
  have hl : ∀ k : Fin 128, lidx_main_v1 (ix2 n d) k = ix2 n k := fun k => funext fun a => match a with
    | ⟨0, _⟩ => rfl
    | ⟨1, _⟩ => rfl
  have hr : ∀ k : Fin 128, ridx_main_v1 (ix2 n d) k = ix2 k d := fun k => funext fun a => match a with
    | ⟨0, _⟩ => rfl
    | ⟨1, _⟩ => rfl
  have hb : idx_main_v2 (idx_main_v3 (ix2 n d)) = ix1 d := funext fun a => match a with
    | ⟨0, _⟩ => rfl
  simp only [hl, hr, hb]
  rfl

end Cert.KernelIdeal.Projection

end
-- ==== Proof.LibRowIndexed.lean ====
/-
  Rows of a table addressed by a column of integer positions, read at one element.

  Two StableHLO operations move whole rows of a rank-2 table `[N, C]` according to an `[n, 1]` column of
  positions: the row GATHER (`table[idx]`: result row `p` is the table's row at position `idx p`) and the
  row SCATTER (`zeros.at[idx].add(updates)`: update row `e` lands on the table's row `idx e`). They treat a
  position outside `[0, N)` differently, and that difference is what the lemmas below pin down:

  * the gather reads the position as a signed integer and CLAMPS it into `[0, N - 1]`;
  * the scatter reads the position as a signed integer and DROPS the update row when it is not in `[0, N)`;
    so update element `(e, q)` lands on table element `(r, q')` exactly when `idx e = r` as integers and `q = q'`.
-/
import Idealize.ShloMosaic.PureOps
import Idealize.ShloMosaic.Lib.ValueIdx
import Idealize.ShloMosaic.Lib.StableHlo.Predicate

namespace Idealize.ShloMosaic.RowIndexed

open Idealize.ShloMosaic Idealize.ShloMosaic.ValueIdx Idealize.ShloMosaic.StableHlo.Predicate

/-! ## The row gather -/

/-- The row gather's dimension numbers: the rows collapsed and start-indexed, the columns an offset axis, the index
    vector on axis 1 of the column of positions. -/
abbrev rowGather (N C n : Nat) (sb : List (Fin 2)) (ss : Fin 2 → Nat)
    (wf : GatherDims.WF ⟨2, ![N, C]⟩ ⟨2, ![n, 1]⟩ ⟨2, ![n, C]⟩ [1] [0] [] [0] sb 1 ss) :
    GatherDims ⟨2, ![N, C]⟩ ⟨2, ![n, 1]⟩ ⟨2, ![n, C]⟩ :=
  ⟨[1], [0], [], sb, [0], 1, ss, wf⟩

theorem rowGather_apply {α : Type} {N C n w : Nat} (sb : List (Fin 2)) (ss : Fin 2 → Nat)
    (wf : GatherDims.WF ⟨2, ![N, C]⟩ ⟨2, ![n, 1]⟩ ⟨2, ![n, C]⟩ [1] [0] [] [0] sb 1 ss)
    (x : (⟨2, ![N, C]⟩ : Shape).Idx → α) (idx : IVec ⟨2, ![n, 1]⟩ w) (p : Fin n) (q : Fin C) (hN : 0 < N) :
    Host.gather (rowGather N C n sb ss wf) x idx (ix2 p q) = x (ix2 ⟨min (idx (ixP p)).toInt.toNat (N - 1), by omega⟩ q) := by
  unfold Host.gather
  congr 1
  funext a
  apply Fin.ext
  match a with
  | ⟨0, h0⟩ =>
    show (rowGather N C n sb ss wf).start (ix2 p q) idx ⟨0, h0⟩ + (rowGather N C n sb ss wf).batchCoord (ix2 p q) ⟨0, h0⟩
      + (rowGather N C n sb ss wf).offCoord (ix2 p q) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGather N C n sb ss wf).startIndexMap from List.mem_singleton.mpr rfl)]
    have hsl : ss 0 = 1 := (rowGather N C n sb ss wf).slice_collapsed 0 (List.mem_singleton.mpr rfl)
    have hsi : (rowGather N C n sb ss wf).siIdx (ix2 p q) ⟨List.idxOf (⟨0, h0⟩ : Fin 2) (rowGather N C n sb ss wf).startIndexMap,
        List.idxOf_lt_length_iff.2 (List.mem_singleton.mpr rfl)⟩ = ixP p := by
      funext b; refine Fin.ext ?_
      match b with
      | ⟨0, _⟩ => rfl
      | ⟨1, _⟩ => rfl
    rw [hsi]
    show min (idx (ixP p)).toInt.toNat (N - ss 0) = _
    rw [hsl]
  | ⟨1, h1⟩ =>
    show (rowGather N C n sb ss wf).start (ix2 p q) idx ⟨1, h1⟩ + (rowGather N C n sb ss wf).batchCoord (ix2 p q) ⟨1, h1⟩
      + (rowGather N C n sb ss wf).offCoord (ix2 p q) ⟨1, h1⟩ = _
    rw [GatherDims.batchCoord_eq_zero _ _ _ List.not_mem_nil]
    unfold GatherDims.start
    rw [dif_neg (fun h => absurd (congrArg Fin.val (List.mem_singleton.mp h)) Nat.one_ne_zero)]
    simp only [Nat.zero_add, Nat.add_zero]
    rfl

/-- THE ROW GATHER. `table[idx]` over a rank-2 table: one collapsed, start-indexed axis (the rows), the columns an
    offset axis taken whole, the index vector on axis 1 of the `[n, 1]` column of positions. Result element `(p, q)` is the
    table's element `(r, q)`, `r` the position `idx p` read signed and clamped into `[0, N - 1]`. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ixP p)).toInt.toNat (N - 1), by omega⟩ q) := by
  obtain ⟨od, cd, ob, sb, sim, ivd, ss, wf⟩ := d
  dsimp only at hoff hcoll hob hsim hivd
  subst hoff hcoll hob hsim hivd
  exact rowGather_apply sb ss wf x idx p q hN

/-! ## The row scatter -/

/-- The row scatter's dimension numbers: the rows inserted and scattered, the columns a window axis, the index vector
    on axis 1 of the column of positions. -/
abbrev rowScatter (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ :=
  ⟨[1], [0], [0], 1, wf⟩

section
variable {N C n w : Nat} (wf : ScatterDims.WF ⟨2, ![N, C]⟩ ⟨2, ![n, 1]⟩ ⟨2, ![n, C]⟩ [1] [0] [0] 1)
  (idx : IVec ⟨2, ![n, 1]⟩ w) (e : Fin n) (q : Fin C)

theorem rowScatter_start0 (h0 : 0 < 2) : (rowScatter N C n wf).start (ix2 e q) idx ⟨0, h0⟩ = (idx (ixP e)).toInt := by
  unfold ScatterDims.start
  rw [dif_pos (show (⟨0, h0⟩ : Fin 2) ∈ (rowScatter N C n wf).scatterDimsToOperandDims from List.mem_singleton.mpr rfl)]
  have hsi : (rowScatter N C n wf).siIdx (ix2 e q) ⟨List.idxOf (⟨0, h0⟩ : Fin 2) (rowScatter N C n wf).scatterDimsToOperandDims,
      List.idxOf_lt_length_iff.2 (List.mem_singleton.mpr rfl)⟩ = ixP e := by
    funext b; refine Fin.ext ?_
    match b with
    | ⟨0, _⟩ => rfl
    | ⟨1, _⟩ => rfl
  rw [hsi]

theorem rowScatter_start1 (h1 : 1 < 2) : (rowScatter N C n wf).start (ix2 e q) idx ⟨1, h1⟩ = 0 := by
  unfold ScatterDims.start
  rw [dif_neg (fun h => absurd (congrArg Fin.val (List.mem_singleton.mp h)) Nat.one_ne_zero)]

theorem rowScatter_sKept : (rowScatter N C n wf).sKept = [(1 : Fin 2)] := rfl

theorem rowScatter_window0 (h0 : 0 < 2) : (rowScatter N C n wf).window (ix2 e q) ⟨0, h0⟩ = 0 := by
  unfold ScatterDims.window
  rw [dif_neg (fun h => by
    rw [rowScatter_sKept] at h
    exact absurd (congrArg Fin.val (List.mem_singleton.mp h)) (Nat.zero_ne_one))]

theorem rowScatter_window1 (h1 : 1 < 2) : (rowScatter N C n wf).window (ix2 e q) ⟨1, h1⟩ = q.val := by
  unfold ScatterDims.window
  rw [dif_pos (by rw [rowScatter_sKept]; exact List.mem_singleton.mpr rfl)]
  rfl

theorem rowScatter_resultIdx (i : (⟨2, ![N, C]⟩ : Shape).Idx) :
    (rowScatter N C n wf).resultIdx? (ix2 e q) idx = some i ↔ (idx (ixP e)).toInt = ((i 0).val : Int) ∧ q = i 1 := by
  have hi0 : (i 0).val < N := (i 0).isLt
  have hi1 : (i 1).val < C := (i 1).isLt
  have hq : q.val < C := q.isLt
  constructor
  · intro hres
    unfold ScatterDims.resultIdx? at hres
    split at hres
    · rename_i h
      have hres' := Option.some.inj hres
      have e0 : ((rowScatter N C n wf).start (ix2 e q) idx ⟨0, Nat.zero_lt_two⟩ + (rowScatter N C n wf).window (ix2 e q) ⟨0, Nat.zero_lt_two⟩).toNat = (i 0).val :=
        congrArg Fin.val (congrFun hres' ⟨0, Nat.zero_lt_two⟩)
      have e1 : ((rowScatter N C n wf).start (ix2 e q) idx ⟨1, Nat.one_lt_two⟩ + (rowScatter N C n wf).window (ix2 e q) ⟨1, Nat.one_lt_two⟩).toNat = (i 1).val :=
        congrArg Fin.val (congrFun hres' ⟨1, Nat.one_lt_two⟩)
      have h0 := (h ⟨0, Nat.zero_lt_two⟩).1
      rw [rowScatter_start0, rowScatter_window0] at e0 h0
      rw [rowScatter_start1, rowScatter_window1] at e1
      refine ⟨by omega, Fin.ext (by omega)⟩
    · exact absurd hres (by simp)
  · rintro ⟨ht, hq'⟩
    unfold ScatterDims.resultIdx?
    have h : ∀ a : Fin 2, 0 ≤ (rowScatter N C n wf).start (ix2 e q) idx a + (rowScatter N C n wf).window (ix2 e q) a
        ∧ (rowScatter N C n wf).start (ix2 e q) idx a + (rowScatter N C n wf).window (ix2 e q) a < (⟨2, ![N, C]⟩ : Shape).size a := by
      intro a
      match a with
      | ⟨0, h0⟩ =>
        rw [rowScatter_start0, rowScatter_window0, ht]
        show 0 ≤ ((i 0).val : Int) + ((0 : Nat) : Int) ∧ ((i 0).val : Int) + ((0 : Nat) : Int) < (N : Int)
        omega
      | ⟨1, h1⟩ =>
        rw [rowScatter_start1, rowScatter_window1]
        show 0 ≤ (0 : Int) + (q.val : Int) ∧ (0 : Int) + (q.val : Int) < (C : Int)
        omega
    rw [dif_pos h]
    congr 1
    funext a
    apply Fin.ext
    match a with
    | ⟨0, h0⟩ =>
      show ((rowScatter N C n wf).start (ix2 e q) idx ⟨0, h0⟩ + (rowScatter N C n wf).window (ix2 e q) ⟨0, h0⟩).toNat = (i ⟨0, h0⟩).val
      rw [rowScatter_start0, rowScatter_window0, ht]
      show (((i 0).val : Int) + ((0 : Nat) : Int)).toNat = (i 0).val
      omega
    | ⟨1, h1⟩ =>
      show ((rowScatter N C n wf).start (ix2 e q) idx ⟨1, h1⟩ + (rowScatter N C n wf).window (ix2 e q) ⟨1, h1⟩).toNat = (i ⟨1, h1⟩).val
      rw [rowScatter_start1, rowScatter_window1, hq']
      show ((0 : Int) + ((i 1).val : Int)).toNat = (i 1).val
      omega

end

/-- THE ROW SCATTER's landing place. `table.at[idx].add(updates)` over a rank-2 table: the rows an inserted, scattered
    axis, the columns a window axis taken whole, the index vector on axis 1 of the `[n, 1]` column of positions. Update
    element `(e, q)` lands on table element `i` exactly when the position `idx e`, read signed and NOT clamped, is `i`'s
    row and `q` is `i`'s column; a position outside `[0, N)` lands nowhere. -/
theorem resultIdx_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (q : Fin C) (i : (⟨2, ![N, C]⟩ : Shape).Idx) :
    d.resultIdx? (ix2 e q) idx = some i ↔ (idx (ixP e)).toInt = ((i 0).val : Int) ∧ q = i 1 := by
  obtain ⟨uw, iw, sd, ivd, wf⟩ := d
  dsimp only at huw hiw hsd hivd
  subst huw hiw hsd hivd
  exact rowScatter_resultIdx wf idx e q i

end Idealize.ShloMosaic.RowIndexed
-- ==== Proof.EdgeReads.lean ====
/-
  The two programs' lines after the projection, read at one edge.

  Write `cl w` for a position `w` read as a signed integer and clamped into the 100000 nodes. At edge `e`: the kernel
  program's `keep` is the mask at `cl` of the wrapped sending node, and its gather of the region's output reads row `cl` of
  the position it is given; the reference's gathered projection reads row `cl` of the wrapped sending node, its gathered
  mask likewise, and its float mask repeats along the columns. The arrays both programs build from the edge list and
  the rankings (rows, wrapped columns, mask) are the same arrays under two names.
-/
import proofs.«419726_j81793357185324_3_alg».proof.Proof.Gen.ReferenceIdeal.Read
import proofs.«419726_j81793357185324_3_alg».proof.Proof.KernelTail
import proofs.«419726_j81793357185324_3_alg».proof.Proof.LibRowIndexed
import Idealize.ShloMosaic.Lib.StableHlo.Predicate
import Idealize.ShloMosaic.Lib.ValueIdx
import Idealize.ShloMosaic.Lib.Pipeline.Value
import Idealize.ShloMosaic.PureOps.Ideal
import Idealize.ShloMosaic.PureOps.Ideal.Laws

set_option maxRecDepth 16384

noncomputable section

namespace Cert.KernelIdeal.Edges

open Idealize.ShloMosaic Idealize.ShloMosaic.ValueIdx Idealize.ShloMosaic.StableHlo.Predicate Idealize.ShloMosaic.RowIndexed
open Cert.KernelIdeal Cert.KernelIdeal.Gen Cert.KernelIdeal.Tail
open Cert.ReferenceIdeal.Read

/-- A position clamped into the 100000 nodes. -/
def cl (w : BitVec 32) : Fin 100000 := ⟨min w.toInt.toNat (100000 - 1), by omega⟩

/-! ## Reading a column of positions, and the wrapped position, at an edge -/

/-- A vector kept as a column, at row `e`. -/
theorem column_at {α : Type} (v : S1600000.Idx → α) (e : Fin 1600000) :
    broadcastInDim S1600000x1 ![0] bcast_S1600000_S1600000x1_0 v (ixP e) = v (ix1 e) :=
  broadcastInDim_apply _ bcast_S1600000_S1600000x1_0 v (ixP e) (ix1 e) (fun a => match a with
    | ⟨0, _⟩ => by show e.val = if (1600000 : Nat) = 1 then 0 else e.val; rw [if_neg (by decide)])

/-- The wrapped position at an edge depends on the position at that edge only. -/
theorem wrap_congr (p p' : IVec S1600000 32) (i : S1600000.Idx) (h : p i = p' i) : wrap p i = wrap p' i := by
  show Scalar.select (IntOp.cmpi .slt (p i) _) (IntOp.addi (p i) _) (p i) = Scalar.select (IntOp.cmpi .slt (p' i) _) (IntOp.addi (p' i) _) (p' i)
  rw [h]

theorem ofFin_eq_ix1 {n : Nat} (e : Fin n) : (Shape.Idx.ofFin e : (⟨1, ![n]⟩ : Shape).Idx) = ix1 e := by
  funext a; match a with | ⟨0, _⟩ => rfl

/-- A table looked up at a column of positions, at row `e`: the table at the clamped position. -/
theorem take_at {α : Type} (d : GatherDims ⟨1, ![100000]⟩ ⟨2, ![1600000, 1]⟩ ⟨1, ![1600000]⟩)
    (hcoll : d.collapsedSliceDims = [0]) (hob : d.operandBatchingDims = []) (hsim : d.startIndexMap = [0]) (hivd : d.indexVectorDim = 1)
    (x : (⟨1, ![100000]⟩ : Shape).Idx → α) (idx : IVec ⟨2, ![1600000, 1]⟩ 32) (e : Fin 1600000) :
    Host.gather d x idx (ix1 e) = x (ix1 (cl (idx (ixP e)))) := by
  have h := gather_take d hcoll hob hsim hivd x idx e (by decide)
  rw [ofFin_eq_ix1, ofFin_eq_ix1] at h
  exact h

/-! ## The kernel program's lines, at an edge -/

/-- Whether edge `e` is live: the mask at its clamped, wrapped sending node. -/
theorem keep_at (mk : IVec S100000 1) (x3 : IVec S2x1600000 32) (e : Fin 1600000) :
    keep mk x3 (ix1 e) = mk (ix1 (cl (wrap (col x3) (ix1 e)))) := by
  unfold keep
  exact (take_at gather_S100000_S1600000x1_S1600000_n_0_n_n_0_1_1 rfl rfl rfl rfl mk _ e).trans
    (congrArg (fun w => mk (ix1 (cl w))) (column_at (wrap (col x3)) e))

/-- The region's output array gathered at the new columns: row `e`, column `d`. -/
theorem gatherA_at (A : S100000x128.Idx → EReal) (p : IVec S1600000 32) (e : Fin 1600000) (d : Fin 128) :
    Host.gather gather_S100000x128_S1600000x1_S1600000x128_1_0_n_n_0_1_1128 A
      (broadcastInDim S1600000x1 ![0] bcast_S1600000_S1600000x1_0 p) (ix2 e d) = A (ix2 (cl (p (ix1 e))) d) := by
  refine (gather_rows gather_S100000x128_S1600000x1_S1600000x128_1_0_n_n_0_1_1128 rfl rfl rfl rfl rfl A _ e d (by decide)).trans ?_
  exact congrArg (fun w => A (ix2 (cl w) d)) (column_at p e)

/-! ## The reference's lines, at an edge -/

theorem v16_at (x3 : IVec S2x1600000 32) (e : Fin 1600000) :
    val_main_v16 (F := Ideal) x3 (ixP e) = val_main_v15 (F := Ideal) x3 (ix1 e) :=
  (val_main_v16_apply x3 (ixP e)).trans (congrArg _ (funext fun a => match a with | ⟨0, _⟩ => rfl))

theorem v23_at (x3 : IVec S2x1600000 32) (e : Fin 1600000) :
    val_main_v23 (F := Ideal) x3 (ixP e) = val_main_v22 (F := Ideal) x3 (ix1 e) :=
  (val_main_v23_apply x3 (ixP e)).trans (congrArg _ (funext fun a => match a with | ⟨0, _⟩ => rfl))

theorem v30_at (x3 : IVec S2x1600000 32) (e : Fin 1600000) :
    val_main_v30 (F := Ideal) x3 (ixP e) = val_main_v6 (F := Ideal) x3 (ix1 e) :=
  (val_main_v30_apply x3 (ixP e)).trans (congrArg _ (funext fun a => match a with | ⟨0, _⟩ => rfl))

/-- The projection gathered at the sending nodes: row `e`, column `d`. -/
theorem v17_at (x0 : S100000x128.Idx → EReal) (x1 : S128x128.Idx → EReal) (x2 : S128.Idx → EReal) (x3 : IVec S2x1600000 32)
    (e : Fin 1600000) (d : Fin 128) :
    val_main_v17 (F := Ideal) x0 x1 x2 x3 (ix2 e d)
      = val_main_v4 (F := Ideal) x0 x1 x2 (ix2 (cl (val_main_v15 (F := Ideal) x3 (ix1 e))) d) := by
  unfold val_main_v17
  refine (gather_rows Cert.ReferenceIdeal.gather_S100000x128_S1600000x1_S1600000x128_1_0_n_n_0_1_1128 rfl rfl rfl rfl rfl
    (val_main_v4 (F := Ideal) x0 x1 x2) (val_main_v16 (F := Ideal) x3) e d (by decide)).trans ?_
  exact congrArg (fun w => val_main_v4 (F := Ideal) x0 x1 x2 (ix2 (cl w) d)) (v16_at x3 e)

/-- The mask gathered at the sending nodes. -/
theorem v24_at (x3 : IVec S2x1600000 32) (x4 : IVec S100000 32) (e : Fin 1600000) :
    val_main_v24 (F := Ideal) x3 x4 (ix1 e) = val_main_v10 (F := Ideal) x4 (ix1 (cl (val_main_v22 (F := Ideal) x3 (ix1 e)))) := by
  unfold val_main_v24
  exact (take_at Cert.ReferenceIdeal.gather_S100000_S1600000x1_S1600000_n_0_n_n_0_1_1 rfl rfl rfl rfl
    (val_main_v10 (F := Ideal) x4) (val_main_v23 (F := Ideal) x3) e).trans
    (congrArg (fun w => val_main_v10 (F := Ideal) x4 (ix1 (cl w))) (v23_at x3 e))

/-- The mask as a float, repeated along the columns: row `e`, column `d`. -/
theorem v27_at (x3 : IVec S2x1600000 32) (x4 : IVec S100000 32) (e : Fin 1600000) (d : Fin 128) :
    val_main_v27 (F := Ideal) x3 x4 (ix2 e d) = FloatOps.uitofp (F := Ideal) .f32 (val_main_v24 (F := Ideal) x3 x4 (ix1 e)) := by
  rw [val_main_v27_apply, val_main_v26_apply, val_main_v25_apply]
  exact congrArg (fun i => FloatOps.uitofp (F := Ideal) .f32 (val_main_v24 (F := Ideal) x3 x4 i))
    (funext fun a => match a with | ⟨0, _⟩ => rfl)

/-! ## The same arrays under two names -/

theorem row_eq (x3 : IVec S2x1600000 32) : row x3 = val_main_v6 (F := Ideal) x3 := rfl
theorem wrap_col_eq (x3 : IVec S2x1600000 32) : wrap (col x3) = val_main_v15 (F := Ideal) x3 := rfl
theorem wrap_col_eq' (x3 : IVec S2x1600000 32) : wrap (col x3) = val_main_v22 (F := Ideal) x3 := rfl
theorem mask_eq (x4 : IVec S100000 32) : mask x4 = val_main_v10 (F := Ideal) x4 := rfl

end Cert.KernelIdeal.Edges

end
-- ==== Proof.Bridge.lean ====
/-
  The kernel program's result and the reference's are one array.

  Write `c e` for edge `e`'s sending node (the edge list's second row, a negative position counted from the end, then
  clamped into the 100000 nodes), `r e` for its receiving node (the first row, read as a signed integer, NOT clamped),
  `h` for the projection `x·Wᵀ + b` and `μ n ∈ {0, 1}` for the mask `ranking n ≤ 10000`.

  The reference adds, into row `i` of 100000 rows of zeros, the term `h[c e] · μ(c e)` of every edge with `r e = i`.
  The kernel program's region leaves `h[n] · μ n` in row `n` of its output array; its last lines add, into row `i` of
  100001 rows of zeros, that array's row `c' e` for every edge with `r' e = i`, where a live edge (`μ(c e) = 1`) keeps
  `c' e = c e`, `r' e = r e`, and a dead edge is sent to `c' e = 0`, `r' e = 100000`; row 100000 is then cut off.

  Edge by edge the two sums have the same terms. A live edge contributes `h[c e] · μ(c e)` to the same row on both
  sides. A dead edge contributes to row 100000 only on the kernel's side, which no row `i < 100000` is, and contributes
  `h[c e] · 0 = 0` on the reference's side (on the extended reals `y · 0 = 0` for every `y`, infinite ones included, so
  nothing about the inputs is used).
-/
import proofs.«419726_j81793357185324_3_alg».proof.Proof.EdgeReads

set_option maxRecDepth 16384

noncomputable section

namespace Cert.KernelIdeal.Bridge

open Idealize.ShloMosaic Idealize.ShloMosaic.ValueIdx Idealize.ShloMosaic.StableHlo.Predicate Idealize.ShloMosaic.RowIndexed
open Cert.KernelIdeal Cert.KernelIdeal.Gen Cert.KernelIdeal.Tail Cert.KernelIdeal.Edges
open Cert.ReferenceIdeal.Read

/-! ## One edge -/

theorem toInt_dead : (100000#32 : BitVec 32).toInt = 100000 := by decide

theorem uitofp_zero : FloatOps.uitofp (F := Ideal) .f32 (0#1 : BitVec 1) = (0 : EReal) := by
  show (((0#1 : BitVec 1).toNat : ℝ) : EReal) = 0
  simp

/-- The reference's term of edge `e`, column `d`: the projection at the sending node times the float mask there. -/
theorem ref_term (x0 : S100000x128.Idx → EReal) (x1 : S128x128.Idx → EReal) (x2 : S128.Idx → EReal) (x3 : IVec S2x1600000 32)
    (x4 : IVec S100000 32) (e : Fin 1600000) (d : Fin 128) :
    val_main_v28 (F := Ideal) x0 x1 x2 x3 x4 (ix2 e d)
      = val_main_v4 (F := Ideal) x0 x1 x2 (ix2 (cl (val_main_v15 (F := Ideal) x3 (ix1 e))) d)
        * FloatOps.uitofp (F := Ideal) .f32 (val_main_v10 (F := Ideal) x4 (ix1 (cl (val_main_v22 (F := Ideal) x3 (ix1 e))))) := by
  rw [val_main_v28_apply, v17_at, v27_at, v24_at]; rfl

/-- THE TWO TERMS OF ONE EDGE at row `p < 100000`, column `q`. -/
theorem edge_term (x0 : S100000x128.Idx → EReal) (x1 : S128x128.Idx → EReal) (x2 : S128.Idx → EReal) (x3 : IVec S2x1600000 32)
    (x4 : IVec S100000 32) (A : S100000x128.Idx → EReal)
    (hA : ∀ (n : Fin 100000) (d : Fin 128), A (ix2 n d)
      = val_main_v4 (F := Ideal) x0 x1 x2 (ix2 n d) * FloatOps.uitofp (F := Ideal) .f32 (val_main_v10 (F := Ideal) x4 (ix1 n)))
    (p : Fin 100000) (q : Fin 128) (e : Fin 1600000) (d : Fin 128) :
    (if (row2 (mask x4) x3 (ix1 e)).toInt = ((p.val : Nat) : Int) ∧ d = q
      then A (ix2 (cl (wrap (col2 (mask x4) x3) (ix1 e))) d) else 0)
    = (if (val_main_v6 (F := Ideal) x3 (ix1 e)).toInt = ((p.val : Nat) : Int) ∧ d = q
      then val_main_v28 (F := Ideal) x0 x1 x2 x3 x4 (ix2 e d) else 0) := by
  have hp : p.val < 100000 := p.isLt
  rw [ref_term]
  have hkeep := keep_at (mask x4) x3 e
  rw [wrap_col_eq', mask_eq] at hkeep
  by_cases hb : val_main_v10 (F := Ideal) x4 (ix1 (cl (val_main_v22 (F := Ideal) x3 (ix1 e)))) = 1#1
  · -- a live edge: the same row, the same term
    have hk1 : keep (mask x4) x3 (ix1 e) = 1#1 := hkeep.trans hb
    have hrow : row2 (mask x4) x3 (ix1 e) = val_main_v6 (F := Ideal) x3 (ix1 e) := by
      show Scalar.select (keep (mask x4) x3 (ix1 e)) (row x3 (ix1 e)) _ = _
      rw [hk1, ValueIdx.select_one]; rfl
    have hcol : col2 (mask x4) x3 (ix1 e) = col x3 (ix1 e) := by
      show Scalar.select (keep (mask x4) x3 (ix1 e)) (col x3 (ix1 e)) _ = _
      rw [hk1, ValueIdx.select_one]
    have hw : wrap (col2 (mask x4) x3) (ix1 e) = val_main_v15 (F := Ideal) x3 (ix1 e) :=
      (wrap_congr _ _ _ hcol).trans (congrFun (wrap_col_eq x3) (ix1 e))
    rw [hrow, hw, hA]
    rfl
  · -- a dead edge: row 100000 on the kernel's side, a zero term on the reference's
    have hb0 : val_main_v10 (F := Ideal) x4 (ix1 (cl (val_main_v22 (F := Ideal) x3 (ix1 e)))) = 0#1 := ValueIdx.eq_zero_of_ne_one hb
    have hk0 : keep (mask x4) x3 (ix1 e) = 0#1 := hkeep.trans hb0
    have hrow : row2 (mask x4) x3 (ix1 e) = 100000#32 := by
      show Scalar.select (keep (mask x4) x3 (ix1 e)) (row x3 (ix1 e)) _ = _
      rw [hk0, ValueIdx.select_zero]; rfl
    rw [hrow, hb0, if_neg (fun h => by rw [toInt_dead] at h; have := h.1; omega), uitofp_zero, mul_zero, ite_self]

/-! ## The two results -/

theorem zero_at (p : Fin 100001) (q : Fin 128) :
    broadcastInDim S100001x128 ![] bcast_S_S100001x128 (constant (F := Ideal) S_ .f32 0x00000000#32) (ix2 p q)
      = FloatOps.ofBits (F := Ideal) .f32 0x00000000#32 :=
  broadcastInDim_apply _ bcast_S_S100001x128 _ _ (fun a => a.elim0) (fun a => a.elim0)

/-- The first 100000 rows of a 100001-row array. -/
theorem slice_at (X : S100001x128.Idx → EReal) (p : Fin 100000) (q : Fin 128) :
    extractStridedSlice S100000x128 ![0, 0] X slices_S100001x128_S100000x128_0_0 (ix2 p q)
      = X (ix2 (⟨p.val, by have := p.isLt; omega⟩ : Fin 100001) q) :=
  extractStridedSlice_apply ![0, 0] X slices_S100001x128_S100000x128_0_0 (ix2 p q) _
    (fun a => match a with
      | ⟨0, _⟩ => by show p.val = 0 + p.val; omega
      | ⟨1, _⟩ => by show q.val = 0 + q.val; omega)

/-- The accumulating scatter over the extended reals, at an element: the operand's element plus the sum of the updates that
    land on it. -/
theorem scatterAdd_at {s si su : Shape} {w : Nat} (d : ScatterDims s si su) (x : FVec Ideal s .f32) (idx : IVec si w)
    (upd : FVec Ideal su .f32) (i : s.Idx) :
    Host.scatterAdd (F := Ideal) d x idx upd i = Ideal.hostScatterAdd d x idx upd i := rfl

/-- The gathered rows of the region's output, widened: row `e`, column `d`. -/
theorem gathered_at (A : S100000x128.Idx → EReal) (pos : IVec S1600000 32) (e : Fin 1600000) (d : Fin 128) :
    extf (F := Ideal) (φ := .bf16) .f32 (Host.gather gather_S100000x128_S1600000x1_S1600000x128_1_0_n_n_0_1_1128 A
      (broadcastInDim S1600000x1 ![0] bcast_S1600000_S1600000x1_0 pos)) bitsLt_bf16_f32 (ix2 e d)
      = A (ix2 (cl (pos (ix1 e))) d) := by
  unfold extf
  rw [Ideal.extf_def]
  exact gatherA_at A pos e d

/-- THE BRIDGE. With the region's output array `A` the masked projection (`hA`), the kernel program's last lines give
    the reference's result: both are zero plus a sum over the edges and columns, with equal terms. -/
theorem tail_eq_ref (x0 : S100000x128.Idx → EReal) (x1 : S128x128.Idx → EReal) (x2 : S128.Idx → EReal) (x3 : IVec S2x1600000 32)
    (x4 : IVec S100000 32) (A : S100000x128.Idx → EReal)
    (hA : ∀ (n : Fin 100000) (d : Fin 128), A (ix2 n d)
      = val_main_v4 (F := Ideal) x0 x1 x2 (ix2 n d) * FloatOps.uitofp (F := Ideal) .f32 (val_main_v10 (F := Ideal) x4 (ix1 n))) :
    tail A (mask x4) x3 = val_main_v31 (F := Ideal) x0 x1 x2 x3 x4 := by
  funext i
  obtain ⟨p, q, rfl⟩ : ∃ (p : Fin 100000) (q : Fin 128), i = ix2 p q := ⟨i 0, i 1, eq_ix2 i⟩
  unfold tail val_main_v31
  rw [slice_at, scatterAdd_at, scatterAdd_at]
  unfold Ideal.hostScatterAdd
  rw [zero_at, val_main_v29_apply, val_main_cst_apply, Finset.sum_filter, Finset.sum_filter]
  refine congrArg (FloatOps.ofBits (F := Ideal) .f32 0x00000000#32 + ·) (Finset.sum_congr rfl fun j _ => ?_)
  obtain ⟨e, d, rfl⟩ : ∃ (e : Fin 1600000) (d : Fin 128), j = ix2 e d := ⟨j 0, j 1, eq_ix2 j⟩
  have cK : scatter_S100001x128_S1600000x1_S1600000x128_1_0_0_1.resultIdx? (ix2 e d)
        (broadcastInDim S1600000x1 ![0] bcast_S1600000_S1600000x1_0 (row2 (mask x4) x3))
        = some (ix2 (⟨p.val, by have := p.isLt; omega⟩ : Fin 100001) q)
      ↔ (broadcastInDim S1600000x1 ![0] bcast_S1600000_S1600000x1_0 (row2 (mask x4) x3) (ixP e)).toInt = ((p.val : Nat) : Int) ∧ d = q :=
    resultIdx_rows scatter_S100001x128_S1600000x1_S1600000x128_1_0_0_1 rfl rfl rfl rfl _ e d _
  have cR : Cert.ReferenceIdeal.scatter_S100000x128_S1600000x1_S1600000x128_1_0_0_1.resultIdx? (ix2 e d)
        (val_main_v30 (F := Ideal) x3) = some (ix2 p q)
      ↔ (val_main_v30 (F := Ideal) x3 (ixP e)).toInt = ((p.val : Nat) : Int) ∧ d = q :=
    resultIdx_rows Cert.ReferenceIdeal.scatter_S100000x128_S1600000x1_S1600000x128_1_0_0_1 rfl rfl rfl rfl _ e d _
  rw [if_congr cK rfl rfl, if_congr cR rfl rfl, column_at, v30_at, gathered_at]
  exact edge_term x0 x1 x2 x3 x4 A hA p q e d

end Cert.KernelIdeal.Bridge

end
-- ==== Proof.KernelResult.lean ====
/-
  The kernel program's run, with its result named.

  Every weakly fair execution of the kernel program ends with the result buffer at the reference's array of the
  launched arguments — the region leaves the masked projection (the blocks tile the array), the lines after it are the
  edge-wise gather and accumulation, and edge by edge those are the reference's — and with the arguments unchanged.
-/
import proofs.«419726_j81793357185324_3_alg».proof.Proof.Gen.KernelIdeal.Frame
import proofs.«419726_j81793357185324_3_alg».proof.Proof.Gen.ReferenceIdeal.Read
import proofs.«419726_j81793357185324_3_alg».proof.Proof.KernelArray
import proofs.«419726_j81793357185324_3_alg».proof.Proof.KernelTail
import proofs.«419726_j81793357185324_3_alg».proof.Proof.Projection
import proofs.«419726_j81793357185324_3_alg».proof.Proof.Bridge

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat Cfg Window)
open Cert.ReferenceIdeal.Read

variable (m : (ℓ : Loc nD τ sig) → Buf (Elt Ideal) ℓ) (ρ : Dev nD → PrngReg)

/-- The region's output array is the masked projection of the launched arguments. -/
theorem region_array (c : Dev nD) :
    (dats m 0 c).arrAt 4 cfg0.N
      = Arr.proj (m ((c : Thread nD τ).loc main_arg0))
          (transpose S128x128 [1, 0] (m ((c : Thread nD τ).loc main_arg1)) transposes_S128x128_S128x128_1_0)
          (shapeCast S1x128 (m ((c : Thread nD τ).loc main_arg2)) shapeCasts_S128_S1x128)
          (shapeCast S100000x1 (uitofp (F := Ideal) .f32 (Tail.mask (m ((c : Thread nD τ).loc main_arg4)))) shapeCasts_S100000_S100000x1) := by
  rw [Arr.final m c]
  show Arr.proj (V m c main_arg0) (V m c main_v3) (V m c main_v4) (V m c main_v5) = _
  rw [V_main_arg0, Tail.V_v3, Tail.V_v4, Tail.V_v5]

/-- THE RESULT BUFFER after the whole program: the reference's array of the launched arguments. -/
theorem result_ref (c : Dev nD) :
    Pipeline.afterTail₀ cfgs (dats m) 0 (V0 m) [hostOps1, hostOps1_1, hostOps1_2, hostOps1_3, hostOps1_4] c main_v31
      = val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [Tail.result_eq m c, Tail.V_v1, V_main_arg3]
  refine Bridge.tail_eq_ref _ _ _ _ _ _ (fun n d => ?_)
  rw [region_array m c]
  exact Projection.proj_at _ _ _ _ n d

/-- The run: the result at the reference's array, the arguments unchanged. -/
theorem run : θ_run defs (onTc (τ := τ) (main (F := Ideal))) ⟨m, fun _ => 0, ρ⟩ (fun r => ∀ c : Dev nD,
      r.2.mem ((c.tc : Thread nD τ).loc main_v31)
        = val_main_v31 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v31 (Pipeline.mem_restRefs_of main_v31 (by decide) (by decide))).trans (result_ref m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Result

end
-- ==== Proof.lean ====
/-
  The kernel is a graph layer: a linear projection `h = x·Wᵀ + b` of 100000 node features, then for every edge
  `(row, col)` of 1600000 the masked message `mask[col] · h[col]` added into node `row`, where `mask[n]` says whether
  node `n`'s ranking is at most 10000.

  The Pallas kernel computes `h · mask` row block by row block (bf16 operands into an f32 accumulator, a bf16 store:
  over the extended reals every change of format is the identity and the matrix unit's product is the plain sum).
  The program around it sends every dead edge (mask false at its column) to column 0 and to an extra row 100000, gathers,
  adds into 100001 rows and cuts the extra row off. The reference multiplies every gathered row by the mask and adds
  into 100000 rows. Edge by edge the two are the same sum (Proof/Bridge.lean): a live edge adds the same term to the same
  row; a dead edge adds to the cut-off row on one side and adds `h · 0 = 0` on the other. Out-of-range positions behave
  alike on both sides: a gather clamps them, an accumulation drops them (Proof/LibRowIndexed.lean).

  The three frames are the generated ones (the reference's its generated run with the result dropped); the idealization
  rewrote nothing, so `preserves` is trivial; the precondition is not needed: no step of the argument uses finiteness.
-/
import proofs.«419726_j81793357185324_3_alg».proof.Defs
import proofs.«419726_j81793357185324_3_alg».proof.Proof.Gen.Kernel
import proofs.«419726_j81793357185324_3_alg».proof.Proof.Gen.Kernel.Skeleton
import proofs.«419726_j81793357185324_3_alg».proof.Proof.Gen.Kernel.Launch
import proofs.«419726_j81793357185324_3_alg».proof.Proof.Gen.Kernel.Points
import proofs.«419726_j81793357185324_3_alg».proof.Proof.Gen.Kernel.Frame
import proofs.«419726_j81793357185324_3_alg».proof.Proof.Gen.KernelIdeal
import proofs.«419726_j81793357185324_3_alg».proof.Proof.Gen.KernelIdeal.Skeleton
import proofs.«419726_j81793357185324_3_alg».proof.Proof.Gen.KernelIdeal.Launch
import proofs.«419726_j81793357185324_3_alg».proof.Proof.Gen.KernelIdeal.Points
import proofs.«419726_j81793357185324_3_alg».proof.Proof.Gen.KernelIdeal.Frame
import proofs.«419726_j81793357185324_3_alg».proof.Proof.Gen.ReferenceIdeal
import proofs.«419726_j81793357185324_3_alg».proof.Proof.Gen.ReferenceIdeal.Run
import proofs.«419726_j81793357185324_3_alg».proof.Proof.Gen.ReferenceIdeal.Read
import proofs.«419726_j81793357185324_3_alg».proof.Proof.Gen.Pre_finite_inputs
import proofs.«419726_j81793357185324_3_alg».proof.Proof.KernelResult
import Idealize.ShloMosaic.Adequacy
import Idealize.ShloMosaic.Init

noncomputable section

namespace Cert.Proof

open Idealize.ShloMosaic Idealize.SL.Sem Idealize.ShloMosaic.TcCoe

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the reference's array of the arguments, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
